-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S32x704512 : Shape := ⟨2, ![32, 704512]⟩
abbrev S1x704512 : Shape := ⟨2, ![1, 704512]⟩
abbrev S11008 : Shape := ⟨1, ![11008]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S1x704512 : S_.BroadcastsInDim S1x704512 (![] : Fin 0 → Fin S1x704512.rank)
  reducesTo_S1x704512_S_d0_1 : S1x704512.ReducesTo [0, 1] S_
  bcast_S_S11008 : S_.BroadcastsInDim S11008 (![] : Fin 0 → Fin S11008.rank)
  reducesTo_S11008_S_d0 : S11008.ReducesTo [0] S_

variable [Facts]

def fn_part1 {F : FTy → Type} [FloatOps F] (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  main_v18

def fn {F : FTy → Type} [FloatOps F] (main_arg0 : FVec F S4096x4096 .f32) (main_arg1 : IVec S32x704512 32) (main_arg2 : FVec F S1x704512 .f32) (main_arg3 : FVec F S1x704512 .f32) (main_arg4 : FVec F S11008 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S1x704512 .f32 := Host.absf main_arg2
  let main_cst_0 : FVec F S_ .f32 := constant S_ .f32 0x7F800000#32
  let main_v5 : FVec F S1x704512 .f32 := broadcastInDim S1x704512 ![] bcast_S_S1x704512 main_cst_0
  let main_v6 : IVec S1x704512 1 := cmpf .olt main_v4 main_v5
  let main_c_1 : IVec S_ 1 := constantI S_ 1 1#1
  let main_v7 : IVec S_ 1 := (fun x v => Host.reduce IntOp.andi x v reducesTo_S1x704512_S_d0_1 h_S_) main_v6 main_c_1
  let main_v8 : IVec S_ 1 := andi main_v3 main_v7
  let main_v9 : FVec F S1x704512 .f32 := Host.absf main_arg3
  let main_cst_2 : FVec F S_ .f32 := constant S_ .f32 0x7F800000#32
  let main_v10 : FVec F S1x704512 .f32 := broadcastInDim S1x704512 ![] bcast_S_S1x704512 main_cst_2
  let main_v11 : IVec S1x704512 1 := cmpf .olt main_v9 main_v10
  let main_c_3 : IVec S_ 1 := constantI S_ 1 1#1
  let main_v12 : IVec S_ 1 := (fun x v => Host.reduce IntOp.andi x v reducesTo_S1x704512_S_d0_1 h_S_) main_v11 main_c_3
  let main_v13 : IVec S_ 1 := andi main_v8 main_v12
  let main_v14 : FVec F S11008 .f32 := Host.absf main_arg4
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_v13 main_v16
-- ==== Kernel.lean ====
abbrev S4096x4096 : Shape := ⟨2, ![4096, 4096]⟩
abbrev S32x704512 : Shape := ⟨2, ![32, 704512]⟩
abbrev S1x704512 : Shape := ⟨2, ![1, 704512]⟩
abbrev S11008 : Shape := ⟨1, ![11008]⟩
abbrev S_ : Shape := ⟨0, ![]⟩
abbrev S32x172x4096 : Shape := ⟨3, ![32, 172, 4096]⟩
abbrev S1x172x4096 : Shape := ⟨3, ![1, 172, 4096]⟩
abbrev S5504x4096 : Shape := ⟨2, ![5504, 4096]⟩
abbrev S11008x4096 : Shape := ⟨2, ![11008, 4096]⟩
abbrev S1x11008 : Shape := ⟨2, ![1, 11008]⟩
abbrev S4096x11008 : Shape := ⟨2, ![4096, 11008]⟩
abbrev S1024x4096 : Shape := ⟨2, ![1024, 4096]⟩
abbrev S256x4096 : Shape := ⟨2, ![256, 4096]⟩
abbrev S1x256 : Shape := ⟨2, ![1, 256]⟩
abbrev S1024x256 : Shape := ⟨2, ![1024, 256]⟩

abbrev nBuf : Space → Nat
  | .hbm => 39
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S32x704512, .i32⟩
  | .hbm, ⟨2, _⟩ => ⟨S1x704512, .f32⟩
  | .hbm, ⟨3, _⟩ => ⟨S1x704512, .f32⟩
  | .hbm, ⟨4, _⟩ => ⟨S11008, .f32⟩
  | .hbm, ⟨5, _⟩ => ⟨S_, .i32⟩
  | .hbm, ⟨6, _⟩ => ⟨S32x704512, .i32⟩
  | .hbm, ⟨7, _⟩ => ⟨S32x704512, .i32⟩
  | .hbm, ⟨8, _⟩ => ⟨S_, .i32⟩
  | .hbm, ⟨9, _⟩ => ⟨S32x704512, .i32⟩
  | .hbm, ⟨10, _⟩ => ⟨S32x704512, .i32⟩
  | .hbm, ⟨11, _⟩ => ⟨S_, .i32⟩
  | .hbm, ⟨12, _⟩ => ⟨S32x704512, .i32⟩
  | .hbm, ⟨13, _⟩ => ⟨S32x704512, .i32⟩
  | .hbm, ⟨14, _⟩ => ⟨S32x704512, .f32⟩
  | .hbm, ⟨15, _⟩ => ⟨S_, .i32⟩
  | .hbm, ⟨16, _⟩ => ⟨S32x704512, .i32⟩
  | .hbm, ⟨17, _⟩ => ⟨S32x704512, .i32⟩
  | .hbm, ⟨18, _⟩ => ⟨S32x704512, .f32⟩
  | .hbm, ⟨19, _⟩ => ⟨S32x172x4096, .f32⟩
  | .hbm, ⟨20, _⟩ => ⟨S32x172x4096, .f32⟩
  | .hbm, ⟨21, _⟩ => ⟨S1x172x4096, .f32⟩
  | .hbm, ⟨22, _⟩ => ⟨S1x172x4096, .f32⟩
  | .hbm, ⟨23, _⟩ => ⟨S32x172x4096, .f32⟩
  | .hbm, ⟨24, _⟩ => ⟨S32x172x4096, .f32⟩
  | .hbm, ⟨25, _⟩ => ⟨S32x172x4096, .f32⟩
  | .hbm, ⟨26, _⟩ => ⟨S32x172x4096, .f32⟩
  | .hbm, ⟨27, _⟩ => ⟨S32x172x4096, .bf16⟩
  | .hbm, ⟨28, _⟩ => ⟨S5504x4096, .bf16⟩
  | .hbm, ⟨29, _⟩ => ⟨S32x172x4096, .f32⟩
  | .hbm, ⟨30, _⟩ => ⟨S32x172x4096, .f32⟩
  | .hbm, ⟨31, _⟩ => ⟨S32x172x4096, .f32⟩
  | .hbm, ⟨32, _⟩ => ⟨S32x172x4096, .f32⟩
  | .hbm, ⟨33, _⟩ => ⟨S32x172x4096, .bf16⟩
  | .hbm, ⟨34, _⟩ => ⟨S5504x4096, .bf16⟩
  | .hbm, ⟨35, _⟩ => ⟨S11008x4096, .bf16⟩
  | .hbm, ⟨36, _⟩ => ⟨S1x11008, .f32⟩
  | .hbm, ⟨37, _⟩ => ⟨S4096x4096, .bf16⟩
  | .hbm, ⟨38, _⟩ => ⟨S4096x11008, .f32⟩
  | .local _ .vmem, ⟨0, _⟩ => ⟨S1024x4096, .bf16⟩
  | .local _ .vmem, ⟨1, _⟩ => ⟨S1024x4096, .bf16⟩
  | .local _ .vmem, ⟨2, _⟩ => ⟨S256x4096, .bf16⟩
  | .local _ .vmem, ⟨3, _⟩ => ⟨S256x4096, .bf16⟩
  | .local _ .vmem, ⟨4, _⟩ => ⟨S1x256, .f32⟩
  | .local _ .vmem, ⟨5, _⟩ => ⟨S1x256, .f32⟩
  | .local _ .vmem, ⟨6, _⟩ => ⟨S1024x256, .f32⟩
  | .local _ .vmem, ⟨7, _⟩ => ⟨S1024x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S32x704512 : S_.BroadcastsInDim S32x704512 (![] : Fin 0 → Fin S32x704512.rank)
  shapeCasts_S32x704512_S32x172x4096 : S32x704512.ShapeCasts S32x172x4096
  shapeCasts_S1x704512_S1x172x4096 : S1x704512.ShapeCasts S1x172x4096
  bcast_S1x172x4096_S32x172x4096_0_1_2 : S1x172x4096.BroadcastsInDim S32x172x4096 (![0, 1, 2] : Fin 3 → Fin S32x172x4096.rank)
  bitsLt_bf16_f32 : FTy.bits .bf16 < FTy.bits .f32
  shapeCasts_S32x172x4096_S5504x4096 : S32x172x4096.ShapeCasts S5504x4096
  concatenates_S5504x4096_S5504x4096_S11008x4096_d0 : Shape.Concatenates [S5504x4096, S5504x4096] S11008x4096 0
  shapeCasts_S11008_S1x11008 : S11008.ShapeCasts S1x11008
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  dot_S1024x4096_S256x4096_S1024x256_1_1_0_0_n_n_wf : DotDims.WF S1024x4096 S256x4096 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S4096x4096.size a
  hwx0_0 : ∀ i : grid0.Coords, EltTy.bits .bf16 = 32 ∨ (Rect.block (s := S4096x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .bf16 = 32 ∨ (Rect.block (s := S11008x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x11008.size a
  hwx0_2 : ∀ i : grid0.Coords, EltTy.bits .f32 = 32 ∨ (Rect.block (s := S1x11008) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S4096x11008.size a
  hwx0_3 : ∀ i : grid0.Coords, EltTy.bits .f32 = 32 ∨ (Rect.block (s := S4096x11008) S1024x256.size (cc0_transform_3 i) (hinb0_3 i)).WholeWords (EltTy.packing .f32)

variable [Facts₀]

def dot_S1024x4096_S256x4096_S1024x256_1_1_0_0_n_n : DotDims S1024x4096 S256x4096 S1024x256 where
  lhsContracting := [1]
  rhsContracting := [1]
  lhsNonContracting := [0]
  rhsNonContracting := [0]
  lhsBatch := []
  rhsBatch := []
  wf := dot_S1024x4096_S256x4096_S1024x256_1_1_0_0_n_n_wf

abbrev win0_0 : Pipeline.Window sig grid0 :=
  Pipeline.Window.ofSpec (Memref.whole main_v28) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S32x704512 : Shape := ⟨2, ![32, 704512]⟩
abbrev S1x704512 : Shape := ⟨2, ![1, 704512]⟩
abbrev S11008 : Shape := ⟨1, ![11008]⟩
abbrev S_ : Shape := ⟨0, ![]⟩
abbrev S64x704512 : Shape := ⟨2, ![64, 704512]⟩
abbrev S11008x4096 : Shape := ⟨2, ![11008, 4096]⟩
abbrev S4096x11008 : Shape := ⟨2, ![4096, 11008]⟩
abbrev S1x11008 : Shape := ⟨2, ![1, 11008]⟩

abbrev nBuf : Space → Nat
  | .hbm => 27
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S32x704512, .i32⟩
  | .hbm, ⟨2, _⟩ => ⟨S1x704512, .f32⟩
  | .hbm, ⟨3, _⟩ => ⟨S1x704512, .f32⟩
  | .hbm, ⟨4, _⟩ => ⟨S11008, .f32⟩
  | .hbm, ⟨5, _⟩ => ⟨S_, .i32⟩
  | .hbm, ⟨6, _⟩ => ⟨S32x704512, .i32⟩
  | .hbm, ⟨7, _⟩ => ⟨S32x704512, .i32⟩
  | .hbm, ⟨8, _⟩ => ⟨S_, .i32⟩
  | .hbm, ⟨9, _⟩ => ⟨S32x704512, .i32⟩
  | .hbm, ⟨10, _⟩ => ⟨S32x704512, .i32⟩
  | .hbm, ⟨11, _⟩ => ⟨S32x704512, .f32⟩
  | .hbm, ⟨12, _⟩ => ⟨S_, .i32⟩
  | .hbm, ⟨13, _⟩ => ⟨S32x704512, .i32⟩
  | .hbm, ⟨14, _⟩ => ⟨S32x704512, .i32⟩
  | .hbm, ⟨15, _⟩ => ⟨S32x704512, .f32⟩
  | .hbm, ⟨16, _⟩ => ⟨S64x704512, .f32⟩
  | .hbm, ⟨17, _⟩ => ⟨S64x704512, .f32⟩
  | .hbm, ⟨18, _⟩ => ⟨S64x704512, .f32⟩
  | .hbm, ⟨19, _⟩ => ⟨S64x704512, .f32⟩
  | .hbm, ⟨20, _⟩ => ⟨S64x704512, .f32⟩
  | .hbm, ⟨21, _⟩ => ⟨S11008x4096, .f32⟩
  | .hbm, ⟨22, _⟩ => ⟨S4096x11008, .f32⟩
  | .hbm, ⟨23, _⟩ => ⟨S4096x11008, .f32⟩
  | .hbm, ⟨24, _⟩ => ⟨S1x11008, .f32⟩
  | .hbm, ⟨25, _⟩ => ⟨S4096x11008, .f32⟩
  | .hbm, ⟨26, _⟩ => ⟨S4096x11008, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S_S32x704512 : S_.BroadcastsInDim S32x704512 (![] : Fin 0 → Fin S32x704512.rank)
  concatenates_S32x704512_S32x704512_S64x704512_d0 : Shape.Concatenates [S32x704512, S32x704512] S64x704512 0
  bcast_S1x704512_S64x704512_0_1 : S1x704512.BroadcastsInDim S64x704512 (![0, 1] : Fin 2 → Fin S64x704512.rank)
  shapeCasts_S64x704512_S11008x4096 : S64x704512.ShapeCasts S11008x4096
  transposes_S11008x4096_S4096x11008_1_0 : S11008x4096.Transposes [1, 0] S4096x11008
  bcast_S11008_S1x11008_1 : S11008.BroadcastsInDim S1x11008 (![1] : Fin 1 → Fin S1x11008.rank)
  bcast_S1x11008_S4096x11008_0_1 : S1x11008.BroadcastsInDim S4096x11008 (![0, 1] : Fin 2 → Fin S4096x11008.rank)
  dot_S4096x4096_S4096x11008_S4096x11008_1_0_0_1_n_n_wf : DotDims.WF S4096x4096 S4096x11008 S4096x11008 [1] [0] [0] [1] [] []

variable [Facts₀]

def dot_S4096x4096_S4096x11008_S4096x11008_1_0_0_1_n_n : DotDims S4096x4096 S4096x11008 S4096x11008 where
  lhsContracting := [1]
  rhsContracting := [0]
  lhsNonContracting := [0]
  rhsNonContracting := [1]
  lhsBatch := []
  rhsBatch := []
  wf := dot_S4096x4096_S4096x11008_S4096x11008_1_0_0_1_n_n_wf

class Facts : Prop extends Facts₀ where

variable [Facts]
-- ==== Proof.Dequant.lean ====
/-
  The dequantised weight and the layer's output, as functions of the five argument arrays.

  The packed array holds one word per (row r < 32, group g < 704512); bits 4..7 of a word are the
  nibble of logical row r, bits 0..3 the nibble of logical row r + 32.  A group index splits as
  g = p * 4096 + k with p < 172, k < 4096, and the logical [64, 704512] array, read row-major as
  [11008, 4096], has at (n, k) the entry of logical row n / 172 and group (n % 172) * 4096 + k.
  So weight row n < 5504 comes from the high nibbles of packed row n / 172, weight row n ≥ 5504
  from the low nibbles of packed row n / 172 - 32; each is shifted by the group's zero point and
  multiplied by the group's scale.  The output is x · Wᵀ + bias.
-/
import Idealize.ShloMosaic.PureOps.Ideal
import Idealize.ShloMosaic.Lib.ValueIdx

noncomputable section

namespace Cert.Dequant

open Idealize.ShloMosaic Idealize.ShloMosaic.ValueIdx

/-- The packed words, the per-group parameters, the activations, the bias, the weight, the output. -/
abbrev SPacked : Shape := ⟨2, ![32, 704512]⟩
abbrev SGroup : Shape := ⟨2, ![1, 704512]⟩
abbrev SAct : Shape := ⟨2, ![4096, 4096]⟩
abbrev SBias : Shape := ⟨1, ![11008]⟩
abbrev SWeight : Shape := ⟨2, ![11008, 4096]⟩
abbrev SOut : Shape := ⟨2, ![4096, 11008]⟩

/-- Bits 4..7 of a word: the arithmetic shift by four, then the mask 15. -/
def hiNib (w : BitVec 32) : BitVec 32 := IntOp.andi (IntOp.shrsi .host w 4#32) 15#32
/-- Bits 0..3 of a word. -/
def loNib (w : BitVec 32) : BitVec 32 := IntOp.andi w 15#32

/-- Masking the word to its low byte first changes neither nibble: the shift distributes over the
    conjunction, 255 shifted by four is 15, and 15 ∧ 15 = 15. -/
theorem hiNib_of_byte (w : BitVec 32) :
    IntOp.andi (IntOp.shrsi .host (IntOp.andi w 255#32) 4#32) 15#32 = hiNib w := by
  unfold hiNib IntOp.andi IntOp.shrsi
  rw [if_pos (by decide), if_pos (by decide)]
  show ((w &&& 255#32).sshiftRight 4) &&& 15#32 = (w.sshiftRight 4) &&& 15#32
  rw [BitVec.sshiftRight_and_distrib, BitVec.and_assoc]
  rfl

theorem loNib_of_byte (w : BitVec 32) : IntOp.andi (IntOp.andi w 255#32) 15#32 = loNib w := by
  unfold loNib IntOp.andi
  rw [BitVec.and_assoc]
  rfl

/-- The group of (p, k): p * 4096 + k. -/
def grp (p : Fin 172) (k : Fin 4096) : Fin 704512 := ⟨p.val * 4096 + k.val, by have := p.isLt; have := k.isLt; omega⟩

/-- One dequantised entry: the nibble `nib` of packed row `r` at group (p, k), less the group's zero point,
    times the group's scale. -/
def deq (nib : BitVec 32 → BitVec 32) (wq : SPacked.Idx → BitVec 32) (scale zero : SGroup.Idx → EReal)
    (r : Fin 32) (p : Fin 172) (k : Fin 4096) : EReal :=
  (FloatOps.sitofp (F := Ideal) .f32 (nib (wq (ix2 r (grp p k)))) - zero (ix2 0 (grp p k))) * scale (ix2 0 (grp p k))

/-- The packed row a weight row reads, and its position inside the period of 172. -/
def prow (n : Fin 11008) : Fin 32 := ⟨n.val / 172 % 32, Nat.mod_lt _ (by decide)⟩
def ppos (n : Fin 11008) : Fin 172 := ⟨n.val % 172, Nat.mod_lt _ (by decide)⟩

/-- The weight at (n, k): high nibbles for the first 5504 rows, low nibbles for the rest. -/
def weight (wq : SPacked.Idx → BitVec 32) (scale zero : SGroup.Idx → EReal) (n : Fin 11008) (k : Fin 4096) : EReal :=
  if n.val < 5504 then deq hiNib wq scale zero (prow n) (ppos n) k else deq loNib wq scale zero (prow n) (ppos n) k

/-- The output at (t, n): the row t of x against the row n of the weight, plus the bias at n. -/
def out (x : SAct.Idx → EReal) (wq : SPacked.Idx → BitVec 32) (scale zero : SGroup.Idx → EReal) (bias : SBias.Idx → EReal) :
    SOut.Idx → EReal :=
  fun i => (∑ k : Fin 4096, x (ix2 (i 0) k) * weight wq scale zero (i 1) k) + bias (ix1 (i 1))

end Cert.Dequant

end
-- ==== Proof.KernelHost.lean ====
/-
  The three arrays the matrix product's windows are cut from, read index by index.

  Before the product the program builds, from the arguments: the activations with their format
  changed (no change of value on the extended reals); the bias as a one-row matrix; and the dense
  weight.  The weight is two halves stacked: each half takes the nibbles (high, then low) of the
  packed words masked to their low byte, reads the [32, 704512] array as [32, 172, 4096], subtracts
  the zero points and multiplies by the scales (each read as [1, 172, 4096] and repeated along the 32
  rows), and reads the result as [5504, 4096]: row r * 172 + p of a half is packed row r at the groups
  p * 4096 + k.  Entry (n, k) of the stack is therefore `Dequant.weight` at (n, k); masking to the low
  byte first changes neither nibble.
-/
import proofs.«429825_j75531294867847_3_alg».proof.Proof.Gen.KernelIdeal.Frame
import proofs.«429825_j75531294867847_3_alg».proof.Proof.Dequant
import Idealize.ShloMosaic.Lib.Pipeline.Value
import Idealize.ShloMosaic.Lib.ValueIdx
import Idealize.ShloMosaic.Lib.StableHlo.Run

noncomputable section

namespace Cert.KernelIdeal.HostValue

open Cert.KernelIdeal Cert.KernelIdeal.Gen Idealize.ShloMosaic Idealize.ShloMosaic.TcCoe Idealize.SL.Sem
open Idealize.ShloMosaic.StableHlo Idealize.ShloMosaic.ValueIdx Cert.Dequant

variable {F : FTy → Type} [FloatOps F]

/-! ## The host operations' terms -/

/-- The packed words masked to their low byte. -/
def byteW (x1 : IVec S32x704512 32) : IVec S32x704512 32 :=
  andi x1 (broadcastInDim S32x704512 ![] bcast_S_S32x704512 (constantI S_ 32 255#32))

/-- The high nibbles, as floats. -/
def hiF (x1 : IVec S32x704512 32) : FVec F S32x704512 .f32 :=
  sitofp .f32 (andi (Host.shrsi (byteW x1) (broadcastInDim S32x704512 ![] bcast_S_S32x704512 (constantI S_ 32 4#32)))
    (broadcastInDim S32x704512 ![] bcast_S_S32x704512 (constantI S_ 32 15#32)))

/-- The low nibbles, as floats. -/
def loF (x1 : IVec S32x704512 32) : FVec F S32x704512 .f32 :=
  sitofp .f32 (andi (byteW x1) (broadcastInDim S32x704512 ![] bcast_S_S32x704512 (constantI S_ 32 15#32)))

/-- One half of the weight from its nibbles: (nibble - zero) * scale over [32, 172, 4096], read as [5504, 4096]. -/
def half (nib : FVec F S32x704512 .f32) (x2 x3 : FVec F S1x704512 .f32) : FVec F S5504x4096 .bf16 :=
  shapeCast S5504x4096 (truncf .bf16 (mulf (subf (shapeCast S32x172x4096 nib shapeCasts_S32x704512_S32x172x4096)
      (broadcastInDim S32x172x4096 ![0, 1, 2] bcast_S1x172x4096_S32x172x4096_0_1_2 (shapeCast S1x172x4096 x3 shapeCasts_S1x704512_S1x172x4096)))
    (broadcastInDim S32x172x4096 ![0, 1, 2] bcast_S1x172x4096_S32x172x4096_0_1_2 (shapeCast S1x172x4096 x2 shapeCasts_S1x704512_S1x172x4096))) bitsLt_bf16_f32)
    shapeCasts_S32x172x4096_S5504x4096

/-- The dense weight: the high-nibble half over the low-nibble half. -/
def dense (x1 : IVec S32x704512 32) (x2 x3 : FVec F S1x704512 .f32) : FVec F S11008x4096 .bf16 :=
  concatenate S11008x4096 0 [⟨S5504x4096, half (hiF x1) x2 x3⟩, ⟨S5504x4096, half (loF x1) x2 x3⟩] concatenates_S5504x4096_S5504x4096_S11008x4096_d0

variable (m : (ℓ : Loc nD τ sig) → Buf (Elt F) ℓ)

set_option maxHeartbeats 4000000 in
/-- The weight window's array when the product starts. -/
theorem V_weight (c : Dev nD) :
    (V m c main_v26 : S11008x4096.Idx → Elt F .bf16)
      = dense (m ((c : Thread nD τ).loc main_arg1)) (m ((c : Thread nD τ).loc main_arg2)) (m ((c : Thread nD τ).loc main_arg3)) := by
  dsimp only [V, hostOps0]
  after_results <;> rfl

/-- The bias window's array: the bias as one row. -/
theorem V_bias (c : Dev nD) :
    (V m c main_v27 : S1x11008.Idx → Elt F .f32) = shapeCast S1x11008 (m ((c : Thread nD τ).loc main_arg4)) shapeCasts_S11008_S1x11008 := by
  dsimp only [V, hostOps0]
  after_results <;> rfl

/-- The activation window's array: the activations in the narrower format. -/
theorem V_act (c : Dev nD) :
    (V m c main_v28 : S4096x4096.Idx → Elt F .bf16) = truncf .bf16 (m ((c : Thread nD τ).loc main_arg0)) bitsLt_bf16_f32 := by
  dsimp only [V, hostOps0]
  after_results <;> rfl

/-! ## The terms at an index, on the extended reals -/

theorem hiF_apply (x1 : IVec S32x704512 32) (i : S32x704512.Idx) :
    hiF (F := Ideal) x1 i = FloatOps.sitofp (F := Ideal) .f32 (hiNib (x1 i)) := by
  rw [← hiNib_of_byte]; rfl

theorem loF_apply (x1 : IVec S32x704512 32) (i : S32x704512.Idx) :
    loF (F := Ideal) x1 i = FloatOps.sitofp (F := Ideal) .f32 (loNib (x1 i)) := by
  rw [← loNib_of_byte]; rfl

/-- Row r * 172 + p of a half, at column k: packed row r at group p * 4096 + k. -/
theorem half_apply (nib : FVec Ideal S32x704512 .f32) (x2 x3 : FVec Ideal S1x704512 .f32) (n' : Fin 5504) (k : Fin 4096)
    (r : Fin 32) (p : Fin 172) (hn : n'.val = r.val * 172 + p.val) :
    half nib x2 x3 (ix2 n' k) = (nib (ix2 r (grp p k)) - x3 (ix2 0 (grp p k))) * x2 (ix2 0 (grp p k)) := by
  have hr := r.isLt
  have hp := p.isLt
  have hk := k.isLt
  unfold half
  refine (shapeCast_apply _ shapeCasts_S32x172x4096_S5504x4096 (ix2 n' k) (ix3 r p k) ?_).trans ?_
  · rw [Shape.rowMajor_val_three, Shape.rowMajor_val_two]
    show (r.val * 172 + p.val) * 4096 + k.val = n'.val * 4096 + k.val
    rw [hn]
  have e1 : shapeCast S32x172x4096 nib shapeCasts_S32x704512_S32x172x4096 (ix3 r p k) = nib (ix2 r (grp p k)) :=
    shapeCast_apply nib _ (ix3 r p k) (ix2 r (grp p k)) (by
      rw [Shape.rowMajor_val_two, Shape.rowMajor_val_three]
      show r.val * 704512 + (p.val * 4096 + k.val) = (r.val * 172 + p.val) * 4096 + k.val
      omega)
  have e2 : ∀ x : FVec Ideal S1x704512 .f32,
      broadcastInDim S32x172x4096 ![0, 1, 2] bcast_S1x172x4096_S32x172x4096_0_1_2 (shapeCast S1x172x4096 x shapeCasts_S1x704512_S1x172x4096) (ix3 r p k)
        = x (ix2 0 (grp p k)) := fun x =>
    (broadcastInDim_apply _ bcast_S1x172x4096_S32x172x4096_0_1_2 _ (ix3 r p k) (ix3 (0 : Fin 1) p k) (fun a => by
      match a with
      | ⟨0, _⟩ => show 0 = if (1 : Nat) = 1 then 0 else r.val; rw [if_pos rfl]
      | ⟨1, _⟩ => show p.val = if (172 : Nat) = 1 then 0 else p.val; rw [if_neg (by decide)]
      | ⟨2, _⟩ => show k.val = if (4096 : Nat) = 1 then 0 else k.val; rw [if_neg (by decide)])).trans
    (shapeCast_apply x _ (ix3 (0 : Fin 1) p k) (ix2 0 (grp p k)) (by
      rw [Shape.rowMajor_val_two, Shape.rowMajor_val_three]
      show 0 * 704512 + (p.val * 4096 + k.val) = (0 * 172 + p.val) * 4096 + k.val
      omega))
  show (shapeCast S32x172x4096 nib shapeCasts_S32x704512_S32x172x4096 (ix3 r p k)
      - broadcastInDim S32x172x4096 ![0, 1, 2] bcast_S1x172x4096_S32x172x4096_0_1_2 (shapeCast S1x172x4096 x3 shapeCasts_S1x704512_S1x172x4096) (ix3 r p k))
    * broadcastInDim S32x172x4096 ![0, 1, 2] bcast_S1x172x4096_S32x172x4096_0_1_2 (shapeCast S1x172x4096 x2 shapeCasts_S1x704512_S1x172x4096) (ix3 r p k) = _
  rw [e1, e2 x3, e2 x2]

/-- The dense weight at (n, k) is the dequantised weight. -/
theorem dense_apply (x1 : IVec S32x704512 32) (x2 x3 : FVec Ideal S1x704512 .f32) (n : Fin 11008) (k : Fin 4096) :
    dense (F := Ideal) x1 x2 x3 (ix2 n k) = weight x1 x2 x3 n k := by
  have hn := n.isLt
  unfold dense weight deq
  by_cases h : n.val < 5504
  · rw [if_pos h]
    refine (concatenate_pair_apply_left (t := S11008x4096) (s₁ := S5504x4096) (s₂ := S5504x4096) 0 _ _
      concatenates_S5504x4096_S5504x4096_S11008x4096_d0 (ix2 n k) rfl (ix2 (⟨n.val, h⟩ : Fin 5504) k) (fun b => by
        match b with
        | ⟨0, _⟩ => rfl
        | ⟨1, _⟩ => rfl)).trans ?_
    rw [half_apply _ x2 x3 ⟨n.val, h⟩ k (prow n) (ppos n) (by show n.val = n.val / 172 % 32 * 172 + n.val % 172; omega), hiF_apply]
  · rw [if_neg h]
    refine (concatenate_pair_apply_right (t := S11008x4096) (s₁ := S5504x4096) (s₂ := S5504x4096) 0 _ _
      concatenates_S5504x4096_S5504x4096_S11008x4096_d0 (ix2 n k) rfl rfl (ix2 (⟨n.val - 5504, by omega⟩ : Fin 5504) k) (fun b hb => by
        match b with
        | ⟨0, _⟩ => exact absurd rfl hb
        | ⟨1, _⟩ => rfl) (by show n.val - 5504 + 5504 = n.val; omega)).trans ?_
    rw [half_apply _ x2 x3 ⟨n.val - 5504, by omega⟩ k (prow n) (ppos n) (by show n.val - 5504 = n.val / 172 % 32 * 172 + n.val % 172; omega), loF_apply]

/-- The one-row bias at (0, n) is the bias at n. -/
theorem bias_apply (x4 : FVec Ideal S11008 .f32) (n : Fin 11008) :
    shapeCast S1x11008 x4 shapeCasts_S11008_S1x11008 (ix2 (0 : Fin 1) n) = x4 (ix1 n) :=
  shapeCast_apply x4 _ (ix2 (0 : Fin 1) n) (ix1 n) (by
    rw [Shape.rowMajor_val_one, Shape.rowMajor_val_two]
    show n.val = 0 * 11008 + n.val
    omega)

end Cert.KernelIdeal.HostValue

end
-- ==== Proof.KernelValue.lean ====
/-
  What the matrix product's result array holds after the run: `Dequant.out` of the five arguments.

  Grid point (i, j) — i < 4, j < 43 — multiplies the 1024 rows of the activations from row 1024 * i by the
  256 rows of the dense weight from row 256 * j, contracting their 4096 columns, adds columns 256 * j … of the
  one-row bias to every row, and writes the [1024, 256] block (i, j) of the result.  At the extended
  reals the block's entry (p, q) is the sum over k of x (1024 i + p, k) * W (256 j + q, k), plus the
  bias at 256 j + q: the entry (1024 i + p, 256 j + q) of `Dequant.out`.  The 4 × 43 blocks tile the
  [4096, 11008] result.
-/
import proofs.«429825_j75531294867847_3_alg».proof.Proof.Gen.KernelIdeal.Value
import proofs.«429825_j75531294867847_3_alg».proof.Proof.KernelHost
import Idealize.ShloMosaic.PureOps.Ideal.Laws

noncomputable section

namespace Cert.KernelIdeal.BlockValue

open Cert.KernelIdeal Cert.KernelIdeal.Gen Cert.KernelIdeal.Value Cert.KernelIdeal.HostValue
open Idealize.ShloMosaic Idealize.ShloMosaic.TcCoe Idealize.SL.Sem Idealize.ShloMosaic.ValueIdx Cert.Dequant
open Idealize.ShloMosaic.Pipeline (Dat)

/-! ## The body's product at an index -/

/-- The body's contraction record: rows of the left block against rows of the right block. -/
abbrev D : DotDims S1024x4096 S256x4096 S1024x256 := dot_S1024x4096_S256x4096_S1024x256_1_1_0_0_n_n

theorem lhs_D_0 (i : S1024x256.Idx) (q : dot_S1024x4096_S256x4096_S1024x256_1_1_0_0_n_n.contr.Idx) :
    (dot_S1024x4096_S256x4096_S1024x256_1_1_0_0_n_n.lhsIdx i q 0).val = (i 0).val := by
  unfold DotDims.lhsIdx
  rw [dif_neg (show ¬(0 : Fin S1024x4096.rank) ∈ dot_S1024x4096_S256x4096_S1024x256_1_1_0_0_n_n.lhsBatch by decide), dif_pos (show (0 : Fin S1024x4096.rank) ∈ dot_S1024x4096_S256x4096_S1024x256_1_1_0_0_n_n.lhsNonContracting by decide)]
  rfl
theorem lhs_D_1 (i : S1024x256.Idx) (q : dot_S1024x4096_S256x4096_S1024x256_1_1_0_0_n_n.contr.Idx) :
    (dot_S1024x4096_S256x4096_S1024x256_1_1_0_0_n_n.lhsIdx i q 1).val = (q ⟨0, by decide⟩).val :=
  dot_S1024x4096_S256x4096_S1024x256_1_1_0_0_n_n.lhsIdx_val_of_single rfl i q
theorem rhs_D_0 (i : S1024x256.Idx) (q : dot_S1024x4096_S256x4096_S1024x256_1_1_0_0_n_n.contr.Idx) :
    (dot_S1024x4096_S256x4096_S1024x256_1_1_0_0_n_n.rhsIdx i q 0).val = (i 1).val := by
  unfold DotDims.rhsIdx
  rw [dif_neg (show ¬(0 : Fin S256x4096.rank) ∈ dot_S1024x4096_S256x4096_S1024x256_1_1_0_0_n_n.rhsBatch by decide), dif_pos (show (0 : Fin S256x4096.rank) ∈ dot_S1024x4096_S256x4096_S1024x256_1_1_0_0_n_n.rhsNonContracting by decide)]
  rfl
theorem rhs_D_1 (i : S1024x256.Idx) (q : dot_S1024x4096_S256x4096_S1024x256_1_1_0_0_n_n.contr.Idx) :
    (dot_S1024x4096_S256x4096_S1024x256_1_1_0_0_n_n.rhsIdx i q 1).val = (q ⟨0, by decide⟩).val :=
  dot_S1024x4096_S256x4096_S1024x256_1_1_0_0_n_n.rhsIdx_val_of_single rfl i q

/-- The stored block at (p, q): row p of the left block against row q of the right block, plus the bias row at q. -/
theorem pay_apply (x0 : Vec Ideal S1024x4096 .bf16) (x1 : Vec Ideal S256x4096 .bf16) (x2 : Vec Ideal S1x256 .f32)
    (p : Fin 1024) (q : Fin 256) :
    k0_pay1 x0 x1 x2 (ix2 p q) = (∑ k : Fin 4096, x0 (ix2 p k) * x1 (ix2 q k)) + x2 (ix2 (0 : Fin 1) q) := by
  unfold k0_pay1
  show FloatOps.matmul (F := Ideal) dot_S1024x4096_S256x4096_S1024x256_1_1_0_0_n_n none (shapeCast S1024x4096 x0 shapeCasts_S1024x4096_S1024x4096)
      (shapeCast S256x4096 x1 shapeCasts_S256x4096_S256x4096) (constant S1024x256 .f32 0x00000000#32) (ix2 p q)
    + broadcastTo S1024x256 (shapeCast S1x256 x2 shapeCasts_S1x256_S1x256) broadcasts_S1x256_S1024x256 (ix2 p q) = _
  rw [shapeCast_self, shapeCast_self, shapeCast_self, Ideal.matmul_constant_zero_apply,
    ← Equiv.sum_comp (contrEquiv1 dot_S1024x4096_S256x4096_S1024x256_1_1_0_0_n_n 4096 rfl rfl).symm]
  congr 1
  · refine Finset.sum_congr rfl fun k _ => ?_
    have hk := contrEquiv1_symm_val dot_S1024x4096_S256x4096_S1024x256_1_1_0_0_n_n 4096 rfl rfl k
    have el : dot_S1024x4096_S256x4096_S1024x256_1_1_0_0_n_n.lhsIdx (ix2 p q) ((contrEquiv1 dot_S1024x4096_S256x4096_S1024x256_1_1_0_0_n_n 4096 rfl rfl).symm k) = ix2 p k := funext fun a => Fin.ext (by
      match a with
      | ⟨0, _⟩ => exact lhs_D_0 _ _
      | ⟨1, _⟩ => exact (lhs_D_1 _ _).trans hk)
    have er : dot_S1024x4096_S256x4096_S1024x256_1_1_0_0_n_n.rhsIdx (ix2 p q) ((contrEquiv1 dot_S1024x4096_S256x4096_S1024x256_1_1_0_0_n_n 4096 rfl rfl).symm k) = ix2 q k := funext fun a => Fin.ext (by
      match a with
      | ⟨0, _⟩ => exact rhs_D_0 _ _
      | ⟨1, _⟩ => exact (rhs_D_1 _ _).trans hk)
    rw [el, er]
  · exact broadcastTo_apply x2 broadcasts_S1x256_S1024x256 (ix2 p q) (ix2 (0 : Fin 1) q) (fun a => by
      match a with
      | ⟨0, _⟩ => show 0 = if (1 : Nat) = 1 then 0 else p.val; rw [if_pos rfl]
      | ⟨1, _⟩ => show q.val = if (256 : Nat) = 1 then 0 else q.val; rw [if_neg (by decide)])

/-! ## The windows' blocks, read off the arguments -/

variable (m : (ℓ : Loc nD τ sig) → Buf (Elt Ideal) ℓ) (ρ : Dev nD → PrngReg)

/-- Where each window's block sits at a point, decided over the 172 points: the activations move with the
    result's block rows, the weight and the bias with its block columns. -/
theorem idx_facts : ∀ t : Fin cfg0.N, win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = 0
    ∧ win0_2.index t (1 : Fin 2) = win0_3.index t (1 : Fin 2)
    ∧ win0_3.index t (0 : Fin 2) ≤ 3
    ∧ win0_3.index t (1 : Fin 2) ≤ 42 :=
  (by decide +kernel : ∀ t : Fin grid0.N, _)

/-- Every block of the result is some point's. -/
theorem idx_onto : ∀ (q0 : Fin 4) (q1 : Fin 43), ∃ t : Fin cfg0.N, win0_3.index t = ![q0.val, q1.val] :=
  (by decide +kernel : ∀ (q0 : Fin 4) (q1 : Fin 43), ∃ t : Fin grid0.N, win0_3.index t = ![q0.val, q1.val])

/-- The activation block at a point, at (p, k): the activations at row 1024 * (block row) + p. -/
theorem act_blk (c : Dev nD) (t : Fin cfg0.N) (p : Fin 1024) (k : Fin 4096) (i : S4096x4096.Idx)
    (h0 : (i 0).val = win0_0.index t (0 : Fin 2) * 1024 + p.val) (h1 : (i 1).val = win0_0.index t (1 : Fin 2) * 4096 + k.val) :
    (iblk m c 0 t : Vec Ideal S1024x4096 .bf16) (ix2 p k) = (m ((c : Thread nD τ).loc main_arg0) : S4096x4096.Idx → EReal) i := by
  unfold iblk
  rw [View.read_apply]
  show V m c main_v28 _ = _
  refine (congrFun (V_act m c) _).trans ?_
  show (m ((c : Thread nD τ).loc main_arg0) : S4096x4096.Idx → EReal) _ = _
  congr 1
  funext a
  apply Fin.ext
  match a with
  | ⟨0, _⟩ => show win0_0.index t (0 : Fin 2) * 1024 + 1 * p.val = (i 0).val; omega
  | ⟨1, _⟩ => show win0_0.index t (1 : Fin 2) * 4096 + 1 * k.val = (i 1).val; omega

/-- The weight block at a point, at (q, k): the dequantised weight at row 256 * (block row) + q. -/
theorem weight_blk (c : Dev nD) (t : Fin cfg0.N) (q : Fin 256) (k : Fin 4096) (n : Fin 11008)
    (h0 : n.val = win0_1.index t (0 : Fin 2) * 256 + q.val) (h1 : win0_1.index t (1 : Fin 2) = 0) :
    (iblk m c 1 t : Vec Ideal S256x4096 .bf16) (ix2 q k)
      = weight (m ((c : Thread nD τ).loc main_arg1)) (m ((c : Thread nD τ).loc main_arg2)) (m ((c : Thread nD τ).loc main_arg3)) n k := by
  unfold iblk
  rw [View.read_apply]
  show V m c main_v26 _ = _
  refine (congrFun (V_weight m c) _).trans ?_
  refine Eq.trans (congrArg _ ?_) (dense_apply _ _ _ n k)
  funext a
  apply Fin.ext
  match a with
  | ⟨0, _⟩ => show win0_1.index t (0 : Fin 2) * 256 + 1 * q.val = n.val; omega
  | ⟨1, _⟩ => show win0_1.index t (1 : Fin 2) * 4096 + 1 * k.val = k.val; omega

/-- The bias block at a point, at (0, q): the bias at 256 * (block column) + q. -/
theorem bias_blk (c : Dev nD) (t : Fin cfg0.N) (q : Fin 256) (n : Fin 11008)
    (h0 : n.val = win0_2.index t (1 : Fin 2) * 256 + q.val) (h1 : win0_2.index t (0 : Fin 2) = 0) :
    (iblk m c 2 t : Vec Ideal S1x256 .f32) (ix2 (0 : Fin 1) q) = (m ((c : Thread nD τ).loc main_arg4) : S11008.Idx → EReal) (ix1 n) := by
  unfold iblk
  rw [View.read_apply]
  show V m c main_v27 _ = _
  refine (congrFun (V_bias m c) _).trans ?_
  refine Eq.trans (congrArg _ ?_) (bias_apply _ n)
  funext a
  apply Fin.ext
  match a with
  | ⟨0, _⟩ => show win0_2.index t (0 : Fin 2) * 1 + 1 * 0 = 0; omega
  | ⟨1, _⟩ => show win0_2.index t (1 : Fin 2) * 256 + 1 * q.val = n.val; omega

/-! ## From the blocks to the array -/

/-- The result array as a function of the arguments. -/
abbrev result (c : Dev nD) : S4096x11008.Idx → EReal :=
  out (m ((c : Thread nD τ).loc main_arg0)) (m ((c : Thread nD τ).loc main_arg1)) (m ((c : Thread nD τ).loc main_arg2))
    (m ((c : Thread nD τ).loc main_arg3)) (m ((c : Thread nD τ).loc main_arg4))

theorem hz : (![0, 0] : Fin 2 → Nat) = fun _ => 0 := funext fun a => by fin_cases a <;> rfl

/-- What a point writes back is its block of `result`. -/
theorem flushed_eq (c : Dev nD) (t : Fin cfg0.N) :
    (dats m 0 c).flushed 3 t = ((cfg0.win 3).blk t).view.read (Elt Ideal) (result m c) := by
  rw [flushed3]
  unfold out0_3
  rw [View.canon_unit_zero hz]
  simp only [View.ld_unit_zero (S := S1024x4096) hz, View.ld_unit_zero (S := S256x4096) hz, View.ld_unit_zero (S := S1x256) hz]
  obtain ⟨e0, e1, e2, e3, e4, e5, e6, e7⟩ := idx_facts t
  funext j
  obtain ⟨p, q, rfl⟩ : ∃ (p : Fin 1024) (q : Fin 256), j = ix2 p q := ⟨j 0, j 1, eq_ix2 j⟩
  have hp := p.isLt
  have hq := q.isLt
  show k0_pay1 (iblk m c 0 t) (iblk m c 1 t) (iblk m c 2 t) (ix2 p q) = result m c (((cfg0.win 3).blk t).view.emb (ix2 p q))
  refine (pay_apply (iblk m c 0 t) (iblk m c 1 t) (iblk m c 2 t) p q).trans ?_
  have hI0 : ((((cfg0.win 3).blk t).view.emb (ix2 p q) : S4096x11008.Idx) 0).val = win0_3.index t (0 : Fin 2) * 1024 + 1 * p.val := rfl
  have hI1 : ((((cfg0.win 3).blk t).view.emb (ix2 p q) : S4096x11008.Idx) 1).val = win0_3.index t (1 : Fin 2) * 256 + 1 * q.val := rfl
  unfold result out
  refine congrArg₂ (· + ·) (Finset.sum_congr rfl fun k _ => ?_) ?_
  · rw [act_blk m c t p k (ix2 ((((cfg0.win 3).blk t).view.emb (ix2 p q) : S4096x11008.Idx) 0) k) (by show _ = _; rw [hI0]; omega) (by show k.val = _; omega),
      weight_blk m c t q k ((((cfg0.win 3).blk t).view.emb (ix2 p q) : S4096x11008.Idx) 1) (by rw [hI1]; omega) e3]
  · exact bias_blk m c t q ((((cfg0.win 3).blk t).view.emb (ix2 p q) : S4096x11008.Idx) 1) (by rw [hI1]; omega) e4

/-- An index of the result is in a point's block iff each coordinate is in the block's range. -/
theorem mem_blk (t : Fin cfg0.N) (i : S4096x11008.Idx) :
    i ∈ ((cfg0.win 3).blk t).view.set ↔ ∀ a : Fin 2, win0_3.index t a * S1024x256.size a ≤ (i a).val ∧ (i a).val < win0_3.index t a * S1024x256.size a + S1024x256.size a := by
  show i ∈ ((View.whole main_v29).slice (win0_3.rect t)).set ↔ _
  rw [View.set_slice_whole, Rect.mem_set_unit]
  exact Iff.rfl

/-- The result array after the run is `result`: the point that covers (r, n) is the one at block (r / 1024, n / 256). -/
theorem final (c : Dev nD) : (dats m 0 c).arrAt 3 cfg0.N = result m c :=
  (dats m 0 c).arrAt_eq_of_cover 3 (result m c) (fun t _ => flushed_eq m c t) fun i => by
    have hi0 : (i 0).val < 4096 := (i 0).isLt
    have hi1 : (i 1).val < 11008 := (i 1).isLt
    obtain ⟨t, ht⟩ := idx_onto ⟨(i 0).val / 1024, by omega⟩ ⟨(i 1).val / 256, by omega⟩
    have q0 : win0_3.index t (0 : Fin 2) = (i 0).val / 1024 := congrFun ht 0
    have q1 : win0_3.index t (1 : Fin 2) = (i 1).val / 256 := congrFun ht 1
    refine ⟨t, flush0_3 t, ?_⟩
    rw [mem_blk]
    intro a
    match a with
    | ⟨0, _⟩ => show win0_3.index t (0 : Fin 2) * 1024 ≤ (i 0).val ∧ (i 0).val < win0_3.index t (0 : Fin 2) * 1024 + 1024; omega
    | ⟨1, _⟩ => show win0_3.index t (1 : Fin 2) * 256 ≤ (i 1).val ∧ (i 1).val < win0_3.index t (1 : Fin 2) * 256 + 256; omega

/-- The run, read: the result array at `result`, the arguments unchanged. -/
theorem run : θ_run defs (onTc (τ := τ) (main (F := Ideal))) ⟨m, fun _ => 0, ρ⟩ fun r => ∀ c : Dev nD,
      r.2.mem ((c : Thread nD τ).loc main_v29) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.BlockValue

end
-- ==== Proof.RefValue.lean ====
/-
  The reference's result, read index by index, is the function `Dequant.out` of the five arguments.

  Its weight is the [64, 704512] array of nibbles (high nibbles stacked over low nibbles), less the
  zero points and times the scales broadcast along the 64 rows, read row-major as [11008, 4096]: entry
  (n, k) is entry (n / 172, (n % 172) * 4096 + k) of that array, since 704512 = 172 * 4096.  Rows
  n < 5504 fall in the first piece of the concatenation, the others in the second, 32 rows down.
-/
import proofs.«429825_j75531294867847_3_alg».proof.Proof.Gen.ReferenceIdeal.Read
import proofs.«429825_j75531294867847_3_alg».proof.Proof.Dequant

noncomputable section

namespace Cert.ReferenceIdeal.RefValue

open Cert.ReferenceIdeal Cert.ReferenceIdeal.Gen Cert.ReferenceIdeal.Read Idealize.ShloMosaic Idealize.ShloMosaic.ValueIdx
open Cert.Dequant

/-- The reference's reshaped weight at (n, k) is the dequantised weight. -/
theorem weight_apply (x1 : (⟨S32x704512, .i32⟩ : BufTy).Contents (Elt Ideal)) (x2 x3 : (⟨S1x704512, .f32⟩ : BufTy).Contents (Elt Ideal))
    (n : Fin 11008) (k : Fin 4096) :
    val_main_v13 (F := Ideal) x1 x2 x3 (ix2 n k) = weight x1 x2 x3 n k := by
  have hn := n.isLt
  have hk := k.isLt
  rw [val_main_v13_apply, val_main_v12_apply, val_main_v10_apply, val_main_v11_apply, val_main_v9_apply]
  have eg : idx_main_v9 (idx_main_v13 (ix2 n k)) = ix2 0 (grp (ppos n) k) := funext fun a => Fin.ext (by
    match a with
    | ⟨0, _⟩ => rfl
    | ⟨1, _⟩ => show (n.val * 4096 + k.val) % 704512 = n.val % 172 * 4096 + k.val; omega)
  have eg' : idx_main_v11 (idx_main_v13 (ix2 n k)) = ix2 0 (grp (ppos n) k) := eg
  rw [eg, eg']
  unfold weight deq
  by_cases h : n.val < 5504
  · rw [if_pos h]
    have e8 : val_main_v8 (F := Ideal) x1 (idx_main_v13 (ix2 n k)) = val_main_v4 (F := Ideal) x1 (ix2 (prow n) (grp (ppos n) k)) := by
      unfold val_main_v8
      refine concatenate_pair_apply_left (t := S64x704512) (s₁ := S32x704512) (s₂ := S32x704512) 0 _ _ concatenates_S32x704512_S32x704512_S64x704512_d0 _ rfl _ fun b => ?_
      match b with
      | ⟨0, _⟩ => show n.val / 172 % 32 = (n.val * 4096 + k.val) / 704512; omega
      | ⟨1, _⟩ => show n.val % 172 * 4096 + k.val = (n.val * 4096 + k.val) % 704512; omega
    rw [e8, val_main_v4_apply, val_main_v3_apply, val_main_v1_apply, val_main_v0_apply, val_main_c_apply, val_main_v2_apply, val_main_c_0_apply]
    rfl
  · rw [if_neg h]
    have e8 : val_main_v8 (F := Ideal) x1 (idx_main_v13 (ix2 n k)) = val_main_v7 (F := Ideal) x1 (ix2 (prow n) (grp (ppos n) k)) := by
      unfold val_main_v8
      refine concatenate_pair_apply_right (t := S64x704512) (s₁ := S32x704512) (s₂ := S32x704512) 0 _ _ concatenates_S32x704512_S32x704512_S64x704512_d0 _ rfl rfl _ (fun b hb => ?_) ?_
      · match b with
        | ⟨0, _⟩ => exact absurd rfl hb
        | ⟨1, _⟩ => show n.val % 172 * 4096 + k.val = (n.val * 4096 + k.val) % 704512; omega
      · show n.val / 172 % 32 + 32 = (n.val * 4096 + k.val) / 704512; omega
    rw [e8, val_main_v7_apply, val_main_v6_apply, val_main_v5_apply, val_main_c_1_apply]
    rfl

/-- The reference's result is `Dequant.out` of its arguments: the host's contraction as the sum over k of
    x (t, k) times the transposed weight at (k, n), plus the bias broadcast along the rows. -/
theorem result_eq (x0 : (⟨S4096x4096, .f32⟩ : BufTy).Contents (Elt Ideal)) (x1 : (⟨S32x704512, .i32⟩ : BufTy).Contents (Elt Ideal))
    (x2 x3 : (⟨S1x704512, .f32⟩ : BufTy).Contents (Elt Ideal)) (x4 : (⟨S11008, .f32⟩ : BufTy).Contents (Elt Ideal)) :
    val_main_v18 (F := Ideal) x0 x1 x2 x3 x4 = out x0 x1 x2 x3 x4 := by
  funext i
  rw [val_main_v18_apply, val_main_v15_apply, val_main_v17_apply, val_main_v16_apply]
  unfold out
  show (∑ k : Fin 4096, x0 (lidx_main_v15 i k) * val_main_v14 (F := Ideal) x1 x2 x3 (ridx_main_v15 i k)) + x4 (idx_main_v16 (idx_main_v17 i)) = _
  congr 1
  · refine Finset.sum_congr rfl fun k _ => ?_
    rw [val_main_v14_apply]
    have e0 : lidx_main_v15 i k = ix2 (i 0) k := funext fun a => Fin.ext (by
      match a with
      | ⟨0, _⟩ => rfl
      | ⟨1, _⟩ => rfl)
    have e1 : idx_main_v14 (ridx_main_v15 i k) = ix2 (i 1) k := funext fun a => Fin.ext (by
      match a with
      | ⟨0, _⟩ => rfl
      | ⟨1, _⟩ => rfl)
    rw [e0, e1]
    congr 1
    exact weight_apply x1 x2 x3 (i 1) k
  · exact congrArg x4 (funext fun a => Fin.ext (by
      match a with
      | ⟨0, _⟩ => rfl))

end Cert.ReferenceIdeal.RefValue

end
-- ==== Proof.lean ====
/-
  The layer out = x · Wᵀ + bias with a 4-bit packed weight: the blocked program against its reference,
  equal on the extended reals.

  Both programs dequantise the same way: weight row n, column k is (nibble − zero) · scale at the group
  (n % 172) · 4096 + k, the nibble the high one of packed row n / 172 for n < 5504 and the low one of
  packed row n / 172 − 32 otherwise (`Dequant.weight`).  The reference stacks the two nibble planes,
  dequantises [64, 704512] and reads it row-major as [11008, 4096]; the kernel program dequantises each
  plane as [32, 172, 4096], reads each as [5504, 4096] and stacks them — the same entries, since
  704512 = 172 · 4096 — after masking the words to their low byte, which changes neither nibble.
  The reference contracts x with the transposed weight in one product; the kernel program in 4 × 43
  blocks of [1024, 256], each a product of whole rows (no split of the contraction), so every entry
  is the same sum of 4096 products, plus the same bias entry.  A change of float format is the
  identity on the extended reals, and no law beyond the programs' own sums is used: the precondition
  is not opened.

  Dequant.lean states the two functions; RefValue.lean reads the reference's result as `Dequant.out`;
  KernelHost.lean reads the arrays the product's windows are cut from; KernelValue.lean reads a block
  of the product and assembles the result array.
-/
import proofs.«429825_j75531294867847_3_alg».proof.Defs
import proofs.«429825_j75531294867847_3_alg».proof.Proof.Gen.Kernel
import proofs.«429825_j75531294867847_3_alg».proof.Proof.Gen.Kernel.Skeleton
import proofs.«429825_j75531294867847_3_alg».proof.Proof.Gen.Kernel.Launch
import proofs.«429825_j75531294867847_3_alg».proof.Proof.Gen.Kernel.Points
import proofs.«429825_j75531294867847_3_alg».proof.Proof.Gen.Kernel.Frame
import proofs.«429825_j75531294867847_3_alg».proof.Proof.Gen.KernelIdeal
import proofs.«429825_j75531294867847_3_alg».proof.Proof.Gen.KernelIdeal.Skeleton
import proofs.«429825_j75531294867847_3_alg».proof.Proof.Gen.KernelIdeal.Launch
import proofs.«429825_j75531294867847_3_alg».proof.Proof.Gen.KernelIdeal.Points
import proofs.«429825_j75531294867847_3_alg».proof.Proof.Gen.KernelIdeal.Frame
import proofs.«429825_j75531294867847_3_alg».proof.Proof.Gen.ReferenceIdeal
import proofs.«429825_j75531294867847_3_alg».proof.Proof.Gen.Pre_finite_inputs
import proofs.«429825_j75531294867847_3_alg».proof.Proof.Gen.KernelIdeal.Value
import proofs.«429825_j75531294867847_3_alg».proof.Proof.Gen.ReferenceIdeal.Run
import proofs.«429825_j75531294867847_3_alg».proof.Proof.Gen.ReferenceIdeal.Read
import proofs.«429825_j75531294867847_3_alg».proof.Proof.KernelValue
import proofs.«429825_j75531294867847_3_alg».proof.Proof.RefValue
import Idealize.ShloMosaic.Adequacy
import Idealize.ShloMosaic.Init

noncomputable section

namespace Cert.Proof

open Idealize.ShloMosaic Idealize.SL.Sem

/-- The word-level program runs and leaves its arguments as they were. -/
theorem frame_kernel : Cert.frame_Kernel := fun m ρ _ => Cert.Kernel.Gen.frame m ρ

/-- So does the program read on the extended reals. -/
theorem frame_ideal : Cert.frame_KernelIdeal := fun m ρ _ => Cert.KernelIdeal.Gen.frame m ρ

/-- The reference runs and leaves its arguments as they were: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the five arguments both programs end with `Dequant.out` of them. -/
theorem algebraic : Cert.algebraic_KernelIdeal_ReferenceIdeal := by
  intro m ρ m' ρ' _ hagree
  refine ⟨fun c => Cert.KernelIdeal.BlockValue.result m c, Cert.KernelIdeal.BlockValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v18_eq _ _ _ _ _).trans ((Cert.ReferenceIdeal.RefValue.result_eq _ _ _ _ _).trans ?_)
  obtain ⟨a0, a1, a2, a3, a4⟩ := hagree c
  rw [a0, a1, a2, a3, a4]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
